-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) (main_arg1 : FVec F S8x2048x2048 .f32) (main_arg2 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8x2048x2048 : Shape := ⟨3, ![8, 2048, 2048]⟩
abbrev S1x256x2048 : Shape := ⟨3, ![1, 256, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S8x2048x2048, .f32⟩
  | .hbm, ⟨5, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S_, .f32⟩
  | .hbm, ⟨4, _⟩ => ⟨S8x2048x2048, .f32⟩
  | .hbm, ⟨5, _⟩ => ⟨S8x2048x2048, .i1⟩
  | .hbm, ⟨6, _⟩ => ⟨S_, .f32⟩
  | .hbm, ⟨7, _⟩ => ⟨S8x2048x2048, .f32⟩
  | .hbm, ⟨8, _⟩ => ⟨S8x2048x2048, .i1⟩
  | .hbm, ⟨9, _⟩ => ⟨S8x2048x2048, .i1⟩
  | .hbm, ⟨10, _⟩ => ⟨S_, .f32⟩
  | .hbm, ⟨11, _⟩ => ⟨S8x2048x2048, .f32⟩
  | .hbm, ⟨12, _⟩ => ⟨S8x2048x2048, .i1⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .i1⟩
  | .hbm, ⟨26, _⟩ => ⟨S_, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call6_cst : Ref sig .tc := ⟨.hbm, 39, rfl⟩
abbrev main_call6_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)

variable [Facts₀]

class Facts : Prop extends Facts₀ where

variable [Facts]
-- ==== Proof.Relaxation.lean ====
/-
  The DeepPoly relaxation of ReLU, entry by entry.

  An entry carries a value `x` and an interval `[lo, hi]` around it. After a ReLU:
    * the value becomes `max x 0`;
    * when the interval straddles zero (`lo < 0 < hi`) the new upper bound is the chord through `(lo, 0)` and
      `(hi, hi)` read at `hi`, written `(hi / d) · hi + (−(lo · hi)) / d` with `d = hi − lo`, and the new lower bound is
      `λ · lo` with `λ = 0` when `lo² > hi²` and `λ = 1` otherwise;
    * when `hi ≤ 0` both bounds collapse to `0`; otherwise (`0 ≤ lo`) both are kept.
  Off the straddling case the divisor is replaced by `1`, so the quotient is taken everywhere and selected away.

  Everything here is one entry's arithmetic over an arbitrary float family, so the same three functions serve a tile of
  an array and the whole array. The intercept's numerator is met in two spellings, `0 − lo · hi` and the negation of
  `lo · hi`, and the quotient in two, the vector unit's and the host's; on the extended reals these agree for EVERY
  value, infinite ones included (`0 − y = −y` needs no cancellation), so no finiteness is used.
-/
import Idealize.ShloMosaic.PureOps
import Idealize.ShloMosaic.PureOps.Ideal
import Idealize.ShloMosaic.PureOps.Ideal.Laws

noncomputable section

namespace Cert.Relaxation

open Idealize.ShloMosaic

variable {F : FTy → Type} [FloatOps F]

/-- The float `0.0`. -/
abbrev zeroF : F .f32 := Scalar.ofBits (F := F) .f32 0x00000000#32
/-- The float `1.0`. -/
abbrev oneF : F .f32 := Scalar.ofBits (F := F) .f32 0x3F800000#32

/-- ReLU of the value: `max x 0`. -/
def reluAt (x : F .f32) : F .f32 := FloatOps.maximumf x zeroF

/-- The interval straddles zero: `lo < 0` and `0 < hi`. -/
def straddles (lo hi : F .f32) : BitVec 1 :=
  IntOp.andi (FloatOps.cmpf .olt lo zeroF) (FloatOps.cmpf .ogt hi zeroF)

/-- The interval lies left of zero: `hi ≤ 0`. -/
def leftOfZero (hi : F .f32) : BitVec 1 := FloatOps.cmpf .ole hi zeroF

/-- The chord's divisor `hi − lo` where the interval straddles zero, `1` elsewhere. -/
def chordDiv (lo hi : F .f32) : F .f32 := Scalar.select (straddles lo hi) (FloatOps.subf hi lo) oneF

/-- The slope choice of the lower bound: `0` when `lo² > hi²`, else `1`. -/
def lowSlope (lo hi : F .f32) : F .f32 :=
  Scalar.select (FloatOps.cmpf .ogt (FloatOps.mulf lo lo) (FloatOps.mulf hi hi)) zeroF oneF

/-- The new lower bound. -/
def lowAt (lo hi : F .f32) : F .f32 :=
  Scalar.select (straddles lo hi) (FloatOps.mulf (lowSlope lo hi) lo) (Scalar.select (leftOfZero hi) zeroF lo)

/-- The new upper bound, the intercept's numerator spelt `0 − lo · hi` and the quotients the vector unit's. -/
def highAt (lo hi : F .f32) : F .f32 :=
  Scalar.select (straddles lo hi)
    (FloatOps.addf (FloatOps.mulf (FloatOps.divf hi (chordDiv lo hi)) hi)
      (FloatOps.divf (FloatOps.subf zeroF (FloatOps.mulf lo hi)) (chordDiv lo hi)))
    (Scalar.select (leftOfZero hi) zeroF hi)

/-- The new upper bound, the intercept's numerator spelt as a negation and the quotients the host's. -/
def highAtHost (lo hi : F .f32) : F .f32 :=
  Scalar.select (straddles lo hi)
    (FloatOps.addf (FloatOps.mulf (FloatOps.hostDivf hi (chordDiv lo hi)) hi)
      (FloatOps.hostDivf (FloatOps.hostNegf (FloatOps.mulf lo hi)) (chordDiv lo hi)))
    (Scalar.select (leftOfZero hi) zeroF hi)

/-- On the extended reals the two spellings of the upper bound are one function: the host's quotient is the vector
    unit's, and `0 − y = −y` for every extended real `y`. -/
theorem highAtHost_eq (lo hi : Ideal .f32) : highAtHost (F := Ideal) lo hi = highAt (F := Ideal) lo hi := by
  unfold highAtHost highAt
  have hneg : FloatOps.hostNegf (FloatOps.mulf lo hi) = FloatOps.subf (zeroF (F := Ideal)) (FloatOps.mulf lo hi) := by
    show -(lo * hi) = Ideal.ofBits .f32 0x00000000#32 - lo * hi
    rw [Ideal.ofBits_zero_f32, zero_sub]
  rw [hneg]
  rfl

end Cert.Relaxation

end
-- ==== Proof.KernelArrays.lean ====
/-
  The kernel computes the relaxation tile by tile, and the tiles make up the arrays.

  The arrays are `8 × 2048 × 2048`; the grid has `8 × 8` points, and at point `(b, r)` every window, input or output,
  holds the tile `1 × 256 × 2048` at slab `b`, row band `r` of its array. The body loads the three input tiles, drops the
  unit axis, computes entry by entry, restores the unit axis and stores the three output tiles whole. Dropping and
  restoring a unit axis moves no entry, so the tile an output window holds after the body is, at tile index `y`, the
  relaxation's function of the input tiles at the same `y` (the per-tile lemmas, over arbitrary tiles). A tile index
  `y` of point `t` sits at array index `(b, 256 r + y₁, y₂)` in every window alike, so what point `t` writes back is tile
  `t` of "the relaxation applied entry by entry to the argument arrays"; the 64 tiles cover the arrays, hence each
  output array IS that function of the arguments.
-/
import proofs.«172655_j79422535238274_1_alg».proof.Proof.KernelIdealValue
import proofs.«172655_j79422535238274_1_alg».proof.Proof.Relaxation

noncomputable section

namespace Cert.KernelIdeal.Arrays

open Cert.KernelIdeal Cert.KernelIdeal.Gen Cert.Relaxation Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One tile: the body's result at a tile index -/

theorem origin : (![0, 0, 0] : Fin 3 → Nat) = fun _ => 0 := funext fun a => by fin_cases a <;> rfl

/-- A tile index rebuilt with leading coordinate 0 and the other two copied is the index itself: the leading extent
    is 1. (This is all that dropping and restoring the unit axis does to an index.) -/
theorem same_index (y f : S1x256x2048.Idx) (h0 : (f 0).val = 0) (h1 : (f 1).val = (y 1).val)
    (h2 : (f 2).val = (y 2).val) : f = y := by
  funext a; apply Fin.ext
  match a with
  | ⟨0, _⟩ => have hy : (y 0).val < 1 := (y 0).isLt; show (f 0).val = (y 0).val; omega
  | ⟨1, _⟩ => exact h1
  | ⟨2, _⟩ => exact h2

/-- The value tile after the body: ReLU of the value's input tile, entry by entry. -/
theorem relu_tile (x lo hi : Vec F S1x256x2048 .f32) (y : S1x256x2048.Idx) : out0_3 x lo hi y = reluAt (x y) := by
  unfold out0_3
  simp only [View.ld_unit_zero (S := S1x256x2048) origin]
  refine (ValueP.canon3_eq x y).trans ?_
  have s := same_index y
  simp only [ValueP.E3, s (ValueP.ix3_0 y) rfl rfl rfl]
  rfl

/-- The lower-bound tile after the body: the new lower bound of the interval at the same tile index. Each of the nine
    places where the body reads a loaded tile, it reads it at the tile index itself. -/
theorem low_tile (x lo hi : Vec F S1x256x2048 .f32) (y : S1x256x2048.Idx) : out0_4 x lo hi y = lowAt (lo y) (hi y) := by
  unfold out0_4
  simp only [View.ld_unit_zero (S := S1x256x2048) origin]
  refine (ValueP.canon4_eq lo hi y).trans ?_
  have s := same_index y
  simp only [ValueP.E4, s (ValueP.ix4_0 y) rfl rfl rfl, s (ValueP.ix4_1 y) rfl rfl rfl, s (ValueP.ix4_2 y) rfl rfl rfl,
    s (ValueP.ix4_3 y) rfl rfl rfl, s (ValueP.ix4_4 y) rfl rfl rfl, s (ValueP.ix4_5 y) rfl rfl rfl,
    s (ValueP.ix4_6 y) rfl rfl rfl, s (ValueP.ix4_7 y) rfl rfl rfl, s (ValueP.ix4_9 y) rfl rfl rfl]
  rfl

/-- The upper-bound tile after the body: the new upper bound of the interval at the same tile index (sixteen reads of
    a loaded tile, each at the tile index itself). -/
theorem high_tile (x lo hi : Vec F S1x256x2048 .f32) (y : S1x256x2048.Idx) : out0_5 x lo hi y = highAt (lo y) (hi y) := by
  unfold out0_5
  simp only [View.ld_unit_zero (S := S1x256x2048) origin]
  refine (ValueP.canon5_eq lo hi y).trans ?_
  have s := same_index y
  simp only [ValueP.E5, s (ValueP.ix5_0 y) rfl rfl rfl, s (ValueP.ix5_1 y) rfl rfl rfl, s (ValueP.ix5_2 y) rfl rfl rfl,
    s (ValueP.ix5_3 y) rfl rfl rfl, s (ValueP.ix5_4 y) rfl rfl rfl, s (ValueP.ix5_5 y) rfl rfl rfl,
    s (ValueP.ix5_6 y) rfl rfl rfl, s (ValueP.ix5_7 y) rfl rfl rfl, s (ValueP.ix5_8 y) rfl rfl rfl,
    s (ValueP.ix5_9 y) rfl rfl rfl, s (ValueP.ix5_10 y) rfl rfl rfl, s (ValueP.ix5_11 y) rfl rfl rfl,
    s (ValueP.ix5_12 y) rfl rfl rfl, s (ValueP.ix5_13 y) rfl rfl rfl, s (ValueP.ix5_14 y) rfl rfl rfl,
    s (ValueP.ix5_16 y) rfl rfl rfl]
  rfl

/-! ## The tiles' places -/

/-- At every grid point all six windows hold the tile at the same place of their arrays (decided over the 64
    points), and that place is in column band 0. -/
theorem same_place : ∀ t : Fin cfg0.N, win0_0.index t = win0_3.index t ∧ win0_1.index t = win0_3.index t
    ∧ win0_2.index t = win0_3.index t ∧ win0_4.index t = win0_3.index t ∧ win0_5.index t = win0_3.index t
    ∧ win0_3.index t (2 : Fin 3) = 0 :=
  (by decide +kernel : ∀ t : Fin grid0.N, _)

/-- Grid point t writes back tile t of the ReLU array: the value's input tile and the output tile sit at the same
    place, so the entry written at tile index j is the ReLU of the argument at the array index j lands on. -/
theorem relu_tile_flushed (c : Dev nD) (t : Fin cfg0.N) :
    (dats m 0 c).flushed 3 t = ((cfg0.win 3).blk t).view.read (Elt F) (fun i => reluAt (V m c main_arg0 i)) := by
  show (cfg0.win 3).cut (grid0.coords t) ((dats m 0 c).after 3 t) = _
  rw [after0_3]
  obtain ⟨e0, e1, e2, e4, e5, -⟩ := same_place t
  funext j
  refine (relu_tile (iblk m c 0 t) (iblk m c 1 t) (iblk m c 2 t) j).trans ?_
  have h0 : ((cfg0.win 0).blk t).view.emb j = ((cfg0.win 3).blk t).view.emb j := by
    funext a; apply Fin.ext
    match a with
    | ⟨0, _⟩ => show win0_0.index t (0 : Fin 3) * 1 + 1 * (j 0).val = win0_3.index t (0 : Fin 3) * 1 + 1 * (j 0).val; rw [e0]
    | ⟨1, _⟩ => show win0_0.index t (1 : Fin 3) * 256 + 1 * (j 1).val = win0_3.index t (1 : Fin 3) * 256 + 1 * (j 1).val; rw [e0]
    | ⟨2, _⟩ => show win0_0.index t (2 : Fin 3) * 2048 + 1 * (j 2).val = win0_3.index t (2 : Fin 3) * 2048 + 1 * (j 2).val; rw [e0]
  show reluAt (V m c main_arg0 (((cfg0.win 0).blk t).view.emb j)) = reluAt (V m c main_arg0 (((cfg0.win 3).blk t).view.emb j))
  rw [h0]

/-- Grid point t writes back tile t of the lower-bound array: both interval tiles sit where the output tile sits. -/
theorem low_tile_flushed (c : Dev nD) (t : Fin cfg0.N) :
    (dats m 0 c).flushed 4 t
      = ((cfg0.win 4).blk t).view.read (Elt F) (fun i => lowAt (V m c main_arg1 i) (V m c main_arg2 i)) := by
  show (cfg0.win 4).cut (grid0.coords t) ((dats m 0 c).after 4 t) = _
  rw [after0_4]
  obtain ⟨e0, e1, e2, e4, e5, -⟩ := same_place t
  funext j
  refine (low_tile (iblk m c 0 t) (iblk m c 1 t) (iblk m c 2 t) j).trans ?_
  have h1 : ((cfg0.win 1).blk t).view.emb j = ((cfg0.win 4).blk t).view.emb j := by
    funext a; apply Fin.ext
    match a with
    | ⟨0, _⟩ => show win0_1.index t (0 : Fin 3) * 1 + 1 * (j 0).val = win0_4.index t (0 : Fin 3) * 1 + 1 * (j 0).val; rw [e1, e4]
    | ⟨1, _⟩ => show win0_1.index t (1 : Fin 3) * 256 + 1 * (j 1).val = win0_4.index t (1 : Fin 3) * 256 + 1 * (j 1).val; rw [e1, e4]
    | ⟨2, _⟩ => show win0_1.index t (2 : Fin 3) * 2048 + 1 * (j 2).val = win0_4.index t (2 : Fin 3) * 2048 + 1 * (j 2).val; rw [e1, e4]
  have h2 : ((cfg0.win 2).blk t).view.emb j = ((cfg0.win 4).blk t).view.emb j := by
    funext a; apply Fin.ext
    match a with
    | ⟨0, _⟩ => show win0_2.index t (0 : Fin 3) * 1 + 1 * (j 0).val = win0_4.index t (0 : Fin 3) * 1 + 1 * (j 0).val; rw [e2, e4]
    | ⟨1, _⟩ => show win0_2.index t (1 : Fin 3) * 256 + 1 * (j 1).val = win0_4.index t (1 : Fin 3) * 256 + 1 * (j 1).val; rw [e2, e4]
    | ⟨2, _⟩ => show win0_2.index t (2 : Fin 3) * 2048 + 1 * (j 2).val = win0_4.index t (2 : Fin 3) * 2048 + 1 * (j 2).val; rw [e2, e4]
  show lowAt (V m c main_arg1 (((cfg0.win 1).blk t).view.emb j)) (V m c main_arg2 (((cfg0.win 2).blk t).view.emb j))
    = lowAt (V m c main_arg1 (((cfg0.win 4).blk t).view.emb j)) (V m c main_arg2 (((cfg0.win 4).blk t).view.emb j))
  rw [h1, h2]

/-- Grid point t writes back tile t of the upper-bound array: both interval tiles sit where the output tile sits. -/
theorem high_tile_flushed (c : Dev nD) (t : Fin cfg0.N) :
    (dats m 0 c).flushed 5 t
      = ((cfg0.win 5).blk t).view.read (Elt F) (fun i => highAt (V m c main_arg1 i) (V m c main_arg2 i)) := by
  show (cfg0.win 5).cut (grid0.coords t) ((dats m 0 c).after 5 t) = _
  rw [after0_5]
  obtain ⟨e0, e1, e2, e4, e5, -⟩ := same_place t
  funext j
  refine (high_tile (iblk m c 0 t) (iblk m c 1 t) (iblk m c 2 t) j).trans ?_
  have h1 : ((cfg0.win 1).blk t).view.emb j = ((cfg0.win 5).blk t).view.emb j := by
    funext a; apply Fin.ext
    match a with
    | ⟨0, _⟩ => show win0_1.index t (0 : Fin 3) * 1 + 1 * (j 0).val = win0_5.index t (0 : Fin 3) * 1 + 1 * (j 0).val; rw [e1, e5]
    | ⟨1, _⟩ => show win0_1.index t (1 : Fin 3) * 256 + 1 * (j 1).val = win0_5.index t (1 : Fin 3) * 256 + 1 * (j 1).val; rw [e1, e5]
    | ⟨2, _⟩ => show win0_1.index t (2 : Fin 3) * 2048 + 1 * (j 2).val = win0_5.index t (2 : Fin 3) * 2048 + 1 * (j 2).val; rw [e1, e5]
  have h2 : ((cfg0.win 2).blk t).view.emb j = ((cfg0.win 5).blk t).view.emb j := by
    funext a; apply Fin.ext
    match a with
    | ⟨0, _⟩ => show win0_2.index t (0 : Fin 3) * 1 + 1 * (j 0).val = win0_5.index t (0 : Fin 3) * 1 + 1 * (j 0).val; rw [e2, e5]
    | ⟨1, _⟩ => show win0_2.index t (1 : Fin 3) * 256 + 1 * (j 1).val = win0_5.index t (1 : Fin 3) * 256 + 1 * (j 1).val; rw [e2, e5]
    | ⟨2, _⟩ => show win0_2.index t (2 : Fin 3) * 2048 + 1 * (j 2).val = win0_5.index t (2 : Fin 3) * 2048 + 1 * (j 2).val; rw [e2, e5]
  show highAt (V m c main_arg1 (((cfg0.win 1).blk t).view.emb j)) (V m c main_arg2 (((cfg0.win 2).blk t).view.emb j))
    = highAt (V m c main_arg1 (((cfg0.win 5).blk t).view.emb j)) (V m c main_arg2 (((cfg0.win 5).blk t).view.emb j))
  rw [h1, h2]

/-! ## The tiles cover the arrays

For each output window: an array index is in point t's tile iff each coordinate is in the tile's range; every tile
position (slab b < 8, row band r < 8, column band 0) is some grid point's; so index (b, s, d) lies in the tile at slab b,
row band s / 256. -/

theorem mem_tile3 (t : Fin cfg0.N) (i : S8x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v0_0).slice (win0_3.rect t)).set ↔ _
  rw [View.set_slice_whole, Rect.mem_set_unit]
  exact Iff.rfl

theorem tiles_onto3 : ∀ (b : Fin 8) (r : Fin 8), ∃ t : Fin cfg0.N, win0_3.index t = ![b.val, r.val, 0] :=
  (by decide +kernel : ∀ (b : Fin 8) (r : Fin 8), ∃ t : Fin grid0.N, win0_3.index t = ![b.val, r.val, 0])

theorem covered3 (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := tiles_onto3 ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_tile3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

theorem mem_tile4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0_1).slice (win0_4.rect t)).set ↔ _
  rw [View.set_slice_whole, Rect.mem_set_unit]
  exact Iff.rfl

theorem tiles_onto4 : ∀ (b : Fin 8) (r : Fin 8), ∃ t : Fin cfg0.N, win0_4.index t = ![b.val, r.val, 0] :=
  (by decide +kernel : ∀ (b : Fin 8) (r : Fin 8), ∃ t : Fin grid0.N, win0_4.index t = ![b.val, r.val, 0])

theorem covered4 (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := tiles_onto4 ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_tile4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

theorem mem_tile5 (t : Fin cfg0.N) (i : S8x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_2).slice (win0_5.rect t)).set ↔ _
  rw [View.set_slice_whole, Rect.mem_set_unit]
  exact Iff.rfl

theorem tiles_onto5 : ∀ (b : Fin 8) (r : Fin 8), ∃ t : Fin cfg0.N, win0_5.index t = ![b.val, r.val, 0] :=
  (by decide +kernel : ∀ (b : Fin 8) (r : Fin 8), ∃ t : Fin grid0.N, win0_5.index t = ![b.val, r.val, 0])

theorem covered5 (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := tiles_onto5 ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_tile5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-! ## The arrays after the run -/

/-- The value array after the run: ReLU of the argument, entry by entry. -/
theorem relu_final (c : Dev nD) :
    (dats m 0 c).arrAt 3 cfg0.N = fun i => reluAt (m ((c : Thread nD τ).loc main_arg0) i) :=
  (dats m 0 c).arrAt_eq_of_cover 3 _ (fun t _ => relu_tile_flushed m c t) covered3

/-- The lower-bound array after the run. -/
theorem low_final (c : Dev nD) :
    (dats m 0 c).arrAt 4 cfg0.N
      = fun i => lowAt (m ((c : Thread nD τ).loc main_arg1) i) (m ((c : Thread nD τ).loc main_arg2) i) :=
  (dats m 0 c).arrAt_eq_of_cover 4 _ (fun t _ => low_tile_flushed m c t) covered4

/-- The upper-bound array after the run. -/
theorem high_final (c : Dev nD) :
    (dats m 0 c).arrAt 5 cfg0.N
      = fun i => highAt (m ((c : Thread nD τ).loc main_arg1) i) (m ((c : Thread nD τ).loc main_arg2) i) :=
  (dats m 0 c).arrAt_eq_of_cover 5 _ (fun t _ => high_tile_flushed m c t) covered5

/-- Every weakly fair execution of the kernel's program terminates with the three results at the relaxation of the
    arguments, entry by entry, and the arguments unchanged. -/
theorem run : θ_run defs (onTc (τ := τ) (main (F := F))) ⟨m, fun _ => 0, ρ⟩ fun r => ∀ c : Dev nD,
      r.2.mem ((c : Thread nD τ).loc main_v0_0) = (fun i => reluAt (m ((c : Thread nD τ).loc main_arg0) i))
      ∧ r.2.mem ((c : Thread nD τ).loc main_v0_1)
          = (fun i => lowAt (m ((c : Thread nD τ).loc main_arg1) i) (m ((c : Thread nD τ).loc main_arg2) i))
      ∧ r.2.mem ((c : Thread nD τ).loc main_v0_2)
          = (fun i => highAt (m ((c : Thread nD τ).loc main_arg1) i) (m ((c : Thread nD τ).loc main_arg2) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (relu_final m c), (h c).2.1.trans (low_final m c),
      (h c).2.2.1.trans (high_final m c), (h c).2.2.2⟩)
    (ValueP.run_blocks m ρ)

end Cert.KernelIdeal.Arrays

end
-- ==== Proof.ReferenceArrays.lean ====
/-
  The reference computes the relaxation entry by entry.

  Its three results are whole-array expressions (compares, selects, products, two quotients, one negation, one `max`)
  over the arrays `x`, `lo`, `hi`, every constant a splatted scalar. Read at an index `i`, each stage depends on the
  operands at the SAME index only, so each result at `i` is a function of `x i`, `lo i`, `hi i`: the value's ReLU, the
  new lower bound, and the new upper bound in its host spelling (a negation for the intercept's numerator, the host's
  quotient). On the extended reals the host spelling is the other one (`Relaxation.highAtHost_eq`).
-/
import proofs.«172655_j79422535238274_1_alg».proof.Proof.Gen.ReferenceIdeal.Read
import proofs.«172655_j79422535238274_1_alg».proof.Proof.Relaxation

noncomputable section

namespace Cert.ReferenceIdeal.Arrays

open Cert.ReferenceIdeal Cert.ReferenceIdeal.Read Cert.Relaxation Idealize.ShloMosaic

variable {F : FTy → Type} [FloatOps F]

/-- A whole float array of the program's one array shape. -/
abbrev Arr (F : FTy → Type) : Type := (⟨S8x2048x2048, .f32⟩ : BufTy).Contents (Elt F)

/-- The first result at `i` is the ReLU of `x i`. -/
theorem relu_stage (x : Arr F) (i : S8x2048x2048.Idx) : val_main_v27 (F := F) x i = reluAt (x i) := by
  rw [val_main_v27_apply, val_main_call6_v0_apply, val_main_call6_cst_apply]
  rfl

/-- The straddling test at `i`: `lo i < 0` and `0 < hi i`. -/
theorem straddles_stage (lo hi : Arr F) (i : S8x2048x2048.Idx) :
    val_main_v4 (F := F) lo hi i = straddles (lo i) (hi i) := by
  rw [val_main_v4_apply, val_main_v1_apply, val_main_v3_apply, val_main_v0_apply, val_main_cst_apply,
    val_main_v2_apply, val_main_cst_0_apply]
  rfl

/-- The left-of-zero test at `i`: `hi i ≤ 0`. -/
theorem leftOfZero_stage (hi : Arr F) (i : S8x2048x2048.Idx) : val_main_v6 (F := F) hi i = leftOfZero (hi i) := by
  rw [val_main_v6_apply, val_main_v5_apply, val_main_cst_1_apply]
  rfl

/-- The chord's divisor at `i`. -/
theorem chordDiv_stage (lo hi : Arr F) (i : S8x2048x2048.Idx) :
    val_main_v9 (F := F) lo hi i = chordDiv (lo i) (hi i) := by
  rw [val_main_v9_apply, straddles_stage, val_main_v7_apply, val_main_v8_apply, val_main_cst_2_apply]
  rfl

/-- The lower bound's slope choice at `i` (the reference's change of format is the identity). -/
theorem lowSlope_stage (lo hi : Arr F) (i : S8x2048x2048.Idx) :
    val_main_v20 (F := F) lo hi i = lowSlope (lo i) (hi i) := by
  rw [val_main_v20_apply, val_main_v19_apply, val_main_v18_apply, val_main_v16_apply, val_main_v17_apply,
    val_main_call1_v0_apply, val_main_cst_3_apply, val_main_call1_v1_apply, val_main_cst_4_apply]
  rfl

/-- The second result at `i` is the new lower bound of `[lo i, hi i]`. -/
theorem low_stage (lo hi : Arr F) (i : S8x2048x2048.Idx) : val_main_v26 (F := F) lo hi i = lowAt (lo i) (hi i) := by
  rw [val_main_v26_apply, straddles_stage, val_main_v21_apply, lowSlope_stage, val_main_v25_apply, leftOfZero_stage,
    val_main_v22_apply, val_main_cst_5_apply]
  rfl

/-- The third result at `i` is the new upper bound of `[lo i, hi i]`, in the host spelling. -/
theorem high_stage (lo hi : Arr F) (i : S8x2048x2048.Idx) :
    val_main_v24 (F := F) lo hi i = highAtHost (lo i) (hi i) := by
  rw [val_main_v24_apply, straddles_stage, val_main_v15_apply, val_main_v14_apply, val_main_v10_apply,
    val_main_v13_apply, val_main_v12_apply, val_main_v11_apply, chordDiv_stage, val_main_v23_apply, leftOfZero_stage,
    val_main_v22_apply, val_main_cst_5_apply]
  rfl

/-- The reference's three results as whole arrays: the relaxation applied entry by entry. -/
theorem relu_array (x : Arr F) : val_main_v27 (F := F) x = fun i => reluAt (x i) := funext (relu_stage x)

theorem low_array (lo hi : Arr F) : val_main_v26 (F := F) lo hi = fun i => lowAt (lo i) (hi i) := funext (low_stage lo hi)

/-- On the extended reals the upper bound's host spelling is the vector unit's (`0 − y = −y`). -/
theorem high_array (lo hi : Arr Ideal) :
    val_main_v24 (F := Ideal) lo hi = fun i => highAt (F := Ideal) (lo i) (hi i) :=
  funext fun i => (high_stage lo hi i).trans (highAtHost_eq (lo i) (hi i))

end Cert.ReferenceIdeal.Arrays

end
-- ==== Proof.lean ====
/-
  The DeepPoly relaxation of ReLU over `f32[8, 2048, 2048]`: a tiled kernel against the whole-array reference.

  Both programs take a value array `x` and interval arrays `lo`, `hi` and return three arrays: `max x 0`; the new lower
  bound; the new upper bound (`Proof/Relaxation.lean` has the three functions of one entry). The kernel walks an
  `8 × 8` grid of tiles `1 × 256 × 2048` and computes each tile entry by entry; its three output arrays after the run are
  the relaxation of the arguments entry by entry (`Proof/KernelArrays.lean`). The reference computes the same
  expressions on the whole arrays (`Proof/ReferenceArrays.lean`). The only difference in spelling is the upper bound's
  intercept, `0 − lo · hi` in the kernel and `−(lo · hi)` in the reference, and the quotient's unit; on the extended
  reals these are equal for every value, so the precondition (finite inputs) is never opened.

  The frames: each kernel program terminates without a fault and leaves its arguments as they were; the reference's
  frame is its run with the results dropped. Nothing was rewritten when the kernel was idealized, so that claim is
  trivial.
-/
import proofs.«172655_j79422535238274_1_alg».proof.Defs
import proofs.«172655_j79422535238274_1_alg».proof.Proof.Gen.Kernel
import proofs.«172655_j79422535238274_1_alg».proof.Proof.Gen.Kernel.Frame
import proofs.«172655_j79422535238274_1_alg».proof.Proof.Gen.KernelIdeal
import proofs.«172655_j79422535238274_1_alg».proof.Proof.Gen.KernelIdeal.Frame
import proofs.«172655_j79422535238274_1_alg».proof.Proof.Gen.ReferenceIdeal
import proofs.«172655_j79422535238274_1_alg».proof.Proof.Gen.Pre_finite_inputs
import proofs.«172655_j79422535238274_1_alg».proof.Proof.Gen.ReferenceIdeal.Run
import proofs.«172655_j79422535238274_1_alg».proof.Proof.Gen.ReferenceIdeal.Read
import proofs.«172655_j79422535238274_1_alg».proof.Proof.KernelArrays
import proofs.«172655_j79422535238274_1_alg».proof.Proof.ReferenceArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on `x`, `lo`, `hi` both programs end with the relaxation of the arguments entry by entry:
    the kernel by its tiles, the reference stage by stage, the upper bound's two spellings equal on the extended
    reals. -/
theorem algebraic : Cert.algebraic_KernelIdeal_ReferenceIdeal := by
  intro m ρ m' ρ' _ hagree
  refine ⟨_, _, _, Cert.KernelIdeal.Arrays.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v27_eq, Cert.ReferenceIdeal.Arrays.relu_array, (hagree c).1]
    rfl
  · rw [Cert.ReferenceIdeal.Read.val_main_v26_eq, Cert.ReferenceIdeal.Arrays.low_array, (hagree c).2.1, (hagree c).2.2]
    rfl
  · rw [Cert.ReferenceIdeal.Read.val_main_v24_eq, Cert.ReferenceIdeal.Arrays.high_array, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
